-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x128x128x128 : Shape := ⟨5, ![8, 1, 128, 128, 128]⟩
abbrev S_ : Shape := ⟨0, ![]⟩

class Facts : Prop where
  bcast_S_S8x1x128x128x128 : S_.BroadcastsInDim S8x1x128x128x128 (![] : Fin 0 → Fin S8x1x128x128x128.rank)
  reducesTo_S8x1x128x128x128_S_d0_1_2_3_4 : S8x1x128x128x128.ReducesTo [0, 1, 2, 3, 4] S_
  h_S_ : 0 < S_.numel

variable [Facts]

def fn {F : FTy → Type} [FloatOps F] (main_arg0 : FVec F S8x1x128x128x128 .f32) (main_arg1 : FVec F S8x1x128x128x128 .f32) : IVec S_ 1 :=
  let main_v0 : FVec F S8x1x128x128x128 .f32 := Host.absf main_arg0
  let main_cst : FVec F S_ .f32 := constant S_ .f32 0x7F800000#32
  let main_v1 : FVec F S8x1x128x128x128 .f32 := broadcastInDim S8x1x128x128x128 ![] bcast_S_S8x1x128x128x128 main_cst
  let main_v2 : IVec S8x1x128x128x128 1 := cmpf .olt main_v0 main_v1
  let main_c : IVec S_ 1 := constantI S_ 1 1#1
  let main_v3 : IVec S_ 1 := (fun x v => Host.reduce IntOp.andi x v reducesTo_S8x1x128x128x128_S_d0_1_2_3_4 h_S_) main_v2 main_c
  let main_v4 : FVec F S8x1x128x128x128 .f32 := Host.absf main_arg1
  let main_cst_0 : FVec F S_ .f32 := constant S_ .f32 0x7F800000#32
  let main_v5 : FVec F S8x1x128x128x128 .f32 := broadcastInDim S8x1x128x128x128 ![] bcast_S_S8x1x128x128x128 main_cst_0
  let main_v6 : IVec S8x1x128x128x128 1 := cmpf .olt main_v4 main_v5
  let main_c_1 : IVec S_ 1 := constantI S_ 1 1#1
  let main_v7 : IVec S_ 1 := (fun x v => Host.reduce IntOp.andi x v reducesTo_S8x1x128x128x128_S_d0_1_2_3_4 h_S_) main_v6 main_c_1
  let main_v8 : IVec S_ 1 := andi main_v3 main_v7
  main_v8
-- ==== Kernel.lean ====
abbrev S8x1x128x128x128 : Shape := ⟨5, ![8, 1, 128, 128, 128]⟩
abbrev S131072x128 : Shape := ⟨2, ![131072, 128]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S131072x128, .f32⟩
  | .hbm, ⟨3, _⟩ => ⟨S131072x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x1, .f32⟩
  | _, _ => ⟨S8x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8x1x128x128x128_S131072x128 : S8x1x128x128x128.ShapeCasts S131072x128
  inb_S1x1_S1x1_0_0 : ∀ a, (![0, 0] : Fin 2 → Nat) a + S1x1.size a ≤ S1x1.size a
  h_S1x1 : 0 < S1x1.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  natLt_1_32 : 1 < 32
  reduces_S2048x128_S2048 : S2048x128.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x128x128x128 : Shape := ⟨5, ![8, 1, 128, 128, 128]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8x1x128x128x128, .f32⟩
  | .hbm, ⟨1, _⟩ => ⟨S8x1x128x128x128, .f32⟩
  | .hbm, ⟨2, _⟩ => ⟨S8x1x128x128x128, .f32⟩
  | .hbm, ⟨3, _⟩ => ⟨S8x1x128x128x128, .f32⟩
  | .hbm, ⟨4, _⟩ => ⟨S_, .f32⟩
  | .hbm, ⟨5, _⟩ => ⟨S8x1x128x128x128, .f32⟩
  | .hbm, ⟨6, _⟩ => ⟨S8x1x128x128x128, .f32⟩
  | .hbm, ⟨7, _⟩ => ⟨S_, .f32⟩
  | .hbm, ⟨8, _⟩ => ⟨S8x1x128x128x128, .f32⟩
  | .hbm, ⟨9, _⟩ => ⟨S8x1x128x128x128, .f32⟩
  | .hbm, ⟨10, _⟩ => ⟨S_, .f32⟩
  | .hbm, ⟨11, _⟩ => ⟨S8x1x128x128x128, .f32⟩
  | .hbm, ⟨12, _⟩ => ⟨S8x1x128x128x128, .i1⟩
  | .hbm, ⟨13, _⟩ => ⟨S_, .f32⟩
  | .hbm, ⟨14, _⟩ => ⟨S8x1x128x128x128, .f32⟩
  | .hbm, ⟨15, _⟩ => ⟨S8x1x128x128x128, .i1⟩
  | .hbm, ⟨16, _⟩ => ⟨S8x1x128x128x128, .i1⟩
  | .hbm, ⟨17, _⟩ => ⟨S8x1x128x128x128, .i1⟩
  | .hbm, ⟨18, _⟩ => ⟨S8x1x128x128x128, .f32⟩
  | .hbm, ⟨19, _⟩ => ⟨S8x1x128x128x128, .i1⟩
  | .hbm, ⟨20, _⟩ => ⟨S8x1x128x128x128, .i1⟩
  | .hbm, ⟨21, _⟩ => ⟨S8x1x128x128x128, .f32⟩
  | .hbm, ⟨22, _⟩ => ⟨S_, .f32⟩
  | .hbm, ⟨23, _⟩ => ⟨S8x1x128x128x128, .f32⟩
  | .hbm, ⟨24, _⟩ => ⟨S8x1x128x128x128, .f32⟩
  | .hbm, ⟨25, _⟩ => ⟨S8x1x128x128x128, .f32⟩
  | .hbm, ⟨26, _⟩ => ⟨S8x1x128x128x128, .f32⟩
  | .hbm, ⟨27, _⟩ => ⟨S8x1x128x128x128, .f32⟩
  | .hbm, ⟨28, _⟩ => ⟨S8x1x128x128x128, .f32⟩
  | .hbm, ⟨29, _⟩ => ⟨S8x1x128x128x128, .f32⟩
  | .hbm, ⟨30, _⟩ => ⟨S8x1x128x128x128, .f32⟩
  | .hbm, ⟨31, _⟩ => ⟨S8x1x128x128x128, .f32⟩
  | .hbm, ⟨32, _⟩ => ⟨S_, .f32⟩
  | .hbm, ⟨33, _⟩ => ⟨S8x1x128x128x128, .f32⟩
  | .hbm, ⟨34, _⟩ => ⟨S8x1x128x128x128, .f32⟩
  | .hbm, ⟨35, _⟩ => ⟨S_, .f32⟩
  | .hbm, ⟨36, _⟩ => ⟨S8x1x128x128x128, .f32⟩
  | .hbm, ⟨37, _⟩ => ⟨S8x1x128x128x128, .f32⟩
  | .hbm, ⟨38, _⟩ => ⟨S_, .f32⟩
  | .hbm, ⟨39, _⟩ => ⟨S8x1x128x128x128, .f32⟩
  | .hbm, ⟨40, _⟩ => ⟨S8x1x128x128x128, .f32⟩
  | .hbm, ⟨41, _⟩ => ⟨S8x1x128x128x128, .f32⟩
  | .hbm, ⟨42, _⟩ => ⟨S8x1x128x128x128, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S_S8x1x128x128x128 : S_.BroadcastsInDim S8x1x128x128x128 (![] : Fin 0 → Fin S8x1x128x128x128.rank)
  reducesTo_S8x1x128x128x128_S_d0_1_2_3_4 : S8x1x128x128x128.ReducesTo [0, 1, 2, 3, 4] S_
  h_S_ : 0 < S_.numel

variable [Facts₀]

class Facts : Prop extends Facts₀ where

variable [Facts]
-- ==== Proof.Term.lean ====
/-
  One element of the weighted binary cross-entropy, as a function of two extended reals: the logit `x` and the
  target `t`.

    bce(x, t)    = (max(x, 0) - x·t) + log1p(exp(-|x|))
    weight(x, t) = (1 + ½·[t > ½ and not σ(x) > ½]) + ½·[σ(x) > ½ and not t > ½]      σ the logistic function
    term(x, t)   = bce(x, t) · weight(x, t)

  The kernel and the reference spell it differently in four places, none of which changes the extended real:
  the kernel has ONE operation for σ where the reference writes 1 / (1 + exp(-x)); the kernel negates |x| as 0 - |x|;
  the kernel complements a one-bit mask by xor with 1; and the kernel turns a mask into a number by widening it to
  32 bits and reading it signed, the reference by reading the one bit unsigned. `term` is the kernel's spelling,
  `refTerm` the reference's, `refTerm_eq_term` their equality on every pair of extended reals (no finiteness is used).
-/
import Idealize.ShloMosaic.PureOps.Ideal.Laws

noncomputable section

open Idealize.ShloMosaic

namespace Cert.WeightedBce

/-- The three float words the two programs use, at the ideal values: 0, 1/2 and 1. -/
abbrev zeroW : EReal := Ideal.ofBits .f32 0x00000000#32
abbrev halfW : EReal := Ideal.ofBits .f32 0x3F000000#32
abbrev oneW : EReal := Ideal.ofBits .f32 0x3F800000#32

theorem zeroW_eq : zeroW = 0 := Ideal.ofBits_zero_f32
theorem oneW_eq : oneW = 1 := IdealRules.sign_bit.ideal_onePat .f32

/-- "the prediction is positive": σ(x) > ½, as a one-bit word. -/
def predHigh (x : EReal) : BitVec 1 := Ideal.cmp .ogt (Ideal.logistic x) halfW
/-- "the target is positive": t > ½, as a one-bit word. -/
def tgtHigh (t : EReal) : BitVec 1 := Ideal.cmp .ogt t halfW

/-- The weighted term in the kernel's spelling. -/
def term (x t : EReal) : EReal :=
  ((max x zeroW - x * t) + Ideal.log1p (Ideal.exp (zeroW - max x (-x))))
    * ((oneW + halfW * (((((tgtHigh t &&& (predHigh x ^^^ 1#1)).setWidth 32).toInt : ℝ)) : EReal))
        + halfW * (((((predHigh x &&& (tgtHigh t ^^^ 1#1)).setWidth 32).toInt : ℝ)) : EReal))

/-- The weighted term in the reference's spelling: σ expanded, |x| negated, masks complemented and read unsigned. -/
def refTerm (x t : EReal) : EReal :=
  ((max x zeroW - x * t) + Ideal.log1p (Ideal.exp (-(max x (-x)))))
    * ((oneW + halfW * ((((Ideal.cmp .ogt t halfW &&& ~~~(Ideal.cmp .ogt (Ideal.div oneW (oneW + Ideal.exp (-x))) halfW)).toNat : ℝ)) : EReal))
        + halfW * ((((Ideal.cmp .ogt (Ideal.div oneW (oneW + Ideal.exp (-x))) halfW &&& ~~~(Ideal.cmp .ogt t halfW)).toNat : ℝ)) : EReal))

/-- 1 / (1 + exp(-x)), with the word 1.0 for both ones, is the logistic function. -/
theorem logistic_expanded (x : EReal) : Ideal.div oneW (oneW + Ideal.exp (-x)) = Ideal.logistic x := by
  rw [oneW_eq]; rfl

/-- A one-bit mask `q and not p`: complementing by xor with 1, widening to 32 bits and reading signed gives the
    same number (0 or 1) as complementing and reading the bit unsigned. -/
theorem mask_number (p q : BitVec 1) :
    (((((q &&& (p ^^^ 1#1)).setWidth 32).toInt : ℝ)) : EReal) = ((((q &&& ~~~p).toNat : ℝ)) : EReal) := by
  have h : ((q &&& (p ^^^ 1#1)).setWidth 32).toInt = (((q &&& ~~~p).toNat : ℕ) : ℤ) := by
    revert p q; decide
  rw [h, Int.cast_natCast]

/-- The two spellings are one function of the extended reals. -/
theorem refTerm_eq_term (x t : EReal) : refTerm x t = term x t := by
  unfold refTerm term predHigh tgtHigh
  rw [logistic_expanded, mask_number, mask_number, zeroW_eq, zero_sub]

end Cert.WeightedBce

end
-- ==== Proof.LibLaneSums.lean ====
/-
  A two-stage sum of a rank-2 array of extended reals, for any extents R and L.

  `rows_then_lanes_total`: reduce a [R, L] array along its lane axis (a `vector.multi_reduction <add>` over axis 1 into
  [R], from the zero word), view the R row sums as a column [R, 1] (a `vector.shape_cast`), and reduce that column along
  its row axis (a `vector.multi_reduction <add>` over axis 0 into [1]). At the ideal values the result's one entry is the
  sum of all R·L entries of the array: each reduction is the sum over the indices that drop to the given one, the cast
  is a bijection of indices, and every entry of the array lies in exactly one row. This is what a kernel computes when
  it takes `jnp.sum(v, axis=-1, keepdims=True)` and then `jnp.sum(·, axis=0, keepdims=True)`, one trailing axis at a time.
  No finiteness is needed: addition of extended reals is commutative and associative.
-/
import Idealize.ShloMosaic.PureOps.Ideal.Laws

noncomputable section

open Idealize.ShloMosaic

namespace Cert.LaneSums

/-- Summing a [R, L] array along its lanes, viewing the R sums as a column [R, 1], and summing that column, gives at
    the one index of the result the sum of all R·L entries: each entry lies in exactly one row. -/
theorem rows_then_lanes_total {R L : ℕ} (v : FVec Ideal ⟨2, ![R, L]⟩ .f32)
    (h1 : (⟨2, ![R, L]⟩ : Shape).Reduces [1] ⟨1, ![R]⟩) (hc : (⟨1, ![R]⟩ : Shape).ShapeCasts ⟨2, ![R, 1]⟩)
    (h2 : (⟨2, ![R, 1]⟩ : Shape).Reduces [0] ⟨1, ![1]⟩) (hφ hφ' : FKind.Formats .f32)
    (hacc : (0x00000000#32 : BitVec 32) = FKind.add.neutral .f32 hφ) (hacc' : (0x00000000#32 : BitVec 32) = FKind.add.neutral .f32 hφ')
    (j : (⟨1, ![1]⟩ : Shape).Idx) :
    multiReduction .add [0] ⟨1, ![1]⟩
        (shapeCast ⟨2, ![R, 1]⟩ (multiReduction .add [1] ⟨1, ![R]⟩ v 0x00000000#32 h1 hφ hacc) hc) 0x00000000#32 h2 hφ' hacc' j
      = ∑ i, v i := by
  rw [Ideal.multiReduction_add_total _ _ h2 (fun b => by fin_cases b; rfl) hφ' hacc' j]
  show ∑ i, (multiReduction .add [1] ⟨1, ![R]⟩ v 0x00000000#32 h1 hφ hacc) (Shape.reshapeEquiv hc i) = _
  rw [Equiv.sum_comp (Shape.reshapeEquiv hc) (multiReduction .add [1] ⟨1, ![R]⟩ v 0x00000000#32 h1 hφ hacc)]
  show ∑ r, ∑ i ∈ Finset.univ.filter (fun i => h1.drop i = r), v i = _
  exact Finset.sum_fiberwise Finset.univ h1.drop v

end Cert.LaneSums

end
-- ==== Proof.KernelValue.lean ====
/-
  What the idealized kernel's accumulator holds, point by point, and what @main returns.

  The kernel walks the [131072, 128] logits and targets in 64 blocks of 2048 rows. At each point it forms the block's
  total of `term` (a lane sum, then a sum of the 2048 row sums) and adds it to a [1, 1] accumulator that stays in its
  staging buffer across the grid; the first point stores zero there before adding. So after point n the accumulator is
  the sum of the block totals of points 0..n (`outsAt_eq`, by induction on the point), the one write-back after the
  last point puts the sum over all 64 points into the [1, 1] result array (`final`), and the host lines after the
  region return that sum divided by the word 0x4B800000 (`returned`).
-/
import proofs.«138284_j12953621365099_1_alg».proof.Proof.Gen.KernelIdeal.Frame
import proofs.«138284_j12953621365099_1_alg».proof.Proof.Term
import proofs.«138284_j12953621365099_1_alg».proof.Proof.LibLaneSums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.WeightedBce Cert.LaneSums

variable {F : FTy → Type} [FloatOps F]

theorem hz : (![0, 0] : Fin 2 → Nat) = fun _ => 0 := funext fun a => by fin_cases a <;> rfl

/-! ## One block -/

/-- A block's total: `term` of its logits and targets, summed over its 2048 · 128 entries. -/
def blockTotal (x0 x1 : Vec Ideal S2048x128 .f32) : EReal := ∑ j : S2048x128.Idx, term (x0 j) (x1 j)

/-- The value the body computes from the two loaded blocks is, at its one index, the block's total: the body's
    elementwise operations are `term` entry by entry, and the two reductions sum every entry once. -/
theorem pay3_eq (x0 x1 : Vec Ideal S2048x128 .f32) : k0_pay3 (F := Ideal) x0 x1 = fun _ => blockTotal x0 x1 := by
  funext j
  unfold k0_pay3
  dsimp only
  simp only [shapeCast_self]
  refine (rows_then_lanes_total (R := 2048) (L := 128) _ _ _ _ _ _ _ _ j).trans ?_
  exact Finset.sum_congr rfl fun i _ => rfl

/-- At a point other than the first, the body leaves in the accumulator holding `xo` the store's value computed from
    `xo` and the two blocks: one store, covering the [1, 1] buffer, whose loads read whole buffers. -/
theorem out_B (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (hc : ¬cond0_0 i) (x0 x1 : Vec F S2048x128 .f32) (xo : Vec F S1x1 .f32) :
    out0_B_2 c i a1 h1 a2 h2 a3 h3 hc x0 x1 xo = k0_pay1 (k0_pay3 x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S2048x128) hz,
    View.ld_unit_zero (S := S1x1) hz]

/-- At the first point the body stores zero, reads it back, and leaves the same store's value computed from that zero. -/
theorem out_A (c : Dev nD) (i : grid0.Coords) (a1 : Memref sig .tc .vmem S2048x128 .f32) (h1 : a1.IsWhole)
    (a2 : Memref sig .tc .vmem S2048x128 .f32) (h2 : a2.IsWhole) (a3 : Memref sig .tc .vmem S1x1 .f32) (h3 : a3.IsWhole)
    (hc : cond0_0 i) (x0 x1 : Vec F S2048x128 .f32) :
    out0_A_2 c i a1 h1 a2 h2 a3 h3 hc x0 x1 = k0_pay1 (k0_pay3 x0 x1) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x128) hz,
    View.ld_unit_zero (S := S1x1) hz]

/-- Over the extended reals the first point leaves 0 + the block's total, which is the block's total; -/
theorem first_value (x0 x1 : Vec Ideal S2048x128 .f32) :
    k0_pay1 (F := Ideal) (k0_pay3 x0 x1) (k0_pay2 (F := Ideal)) = fun _ => blockTotal x0 x1 := by
  rw [pay3_eq]
  funext j
  simp only [k0_pay1, k0_pay2, shapeCast_self]
  show zeroW + blockTotal x0 x1 = _
  rw [zeroW_eq, zero_add]

/-- and a later point leaves what the accumulator held plus the block's total. -/
theorem next_value (x0 x1 : Vec Ideal S2048x128 .f32) (xo : Vec Ideal S1x1 .f32) :
    k0_pay1 (F := Ideal) (k0_pay3 x0 x1) xo = fun j => xo j + blockTotal x0 x1 := by
  rw [pay3_eq]
  funext j
  simp only [k0_pay1, shapeCast_self]
  rfl

/-! ## The accumulator after each point -/

variable (m : (ℓ : Loc nD τ sig) → Buf (Elt Ideal) ℓ) (ρ : Dev nD → PrngReg)

/-- The logits' and the targets' block at point `t`, at their literal type. -/
abbrev xblk (c : Dev nD) (t : Fin cfg0.N) : Vec Ideal S2048x128 .f32 := iblk m c 0 t
abbrev tblk (c : Dev nD) (t : Fin cfg0.N) : Vec Ideal S2048x128 .f32 := iblk m c 1 t

/-- The total of the block at position `s` of the grid (zero past the grid's end, so that it is a function of ℕ). -/
def pointTotal (c : Dev nD) (s : ℕ) : EReal :=
  if h : s < cfg0.N then blockTotal (xblk m c ⟨s, h⟩) (tblk m c ⟨s, h⟩) else 0

/-- After point n the accumulator holds the sum of the totals of points 0..n. -/
theorem outsAt_eq (c : Dev nD) : ∀ (n : ℕ) (h : n < cfg0.N),
    outsAt0 m c n h = fun _ => ∑ s ∈ Finset.range (n + 1), pointTotal m c s
  | 0, h => by
    refine (outsAt0_A m c ⟨0, h⟩ rfl).trans ?_
    refine (out_A (F := Ideal) c _ _ _ _ _ _ _ _ (xblk m c ⟨0, h⟩) (tblk m c ⟨0, h⟩)).trans ?_
    refine (first_value _ _).trans ?_
    funext _
    rw [Finset.sum_range_one]
    unfold pointTotal
    rw [dif_pos h]
  | n + 1, h => by
    have hN : cfg0.N = 64 := N_0
    have h' : n + 1 < 64 := hN ▸ h
    have hB : ¬(⟨n + 1, h⟩ : Fin cfg0.N).val % 64 = 0 := by dsimp only; omega
    rw [outsAt0_B m c ⟨n + 1, h⟩ hB]
    refine (out_B (F := Ideal) c _ _ _ _ _ _ _ _ (xblk m c ⟨n + 1, h⟩) (tblk m c ⟨n + 1, h⟩) _).trans ?_
    refine (next_value _ _ _).trans ?_
    funext j
    show outsAt0 m c n _ j + _ = _
    rw [outsAt_eq c n, Finset.sum_range_succ _ (n + 1)]
    unfold pointTotal
    rw [dif_pos h]

/-! ## The result array and what @main returns -/

/-- The sum of all 64 block totals. -/
def total (c : Dev nD) : EReal := ∑ s ∈ Finset.range 64, pointTotal m c s

/-- The [1, 1] result array's contents: that sum at its one index. -/
abbrev result (c : Dev nD) : Buf (Elt Ideal) ((c : Thread nD τ).loc main_v2) := fun _ => total m c

/-- The last point of the grid. -/
abbrev lastPt : Fin cfg0.N := ⟨63, by rw [show cfg0.N = 64 from N_0]; decide⟩

/-- The only write-back is after the last point, and it writes the sum over all points. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val = 63 := by have := (flush0_2 t).mp hf; have := t.isLt; omega
  funext x
  rw [View.read_apply]
  show (cfg0.win 2).cut (grid0.coords t) ((dats m 0 c).after 2 t) x = total m c
  rw [after0_2, outsAt_eq]
  show ∑ s ∈ Finset.range (t.val + 1), pointTotal m c s = total m c
  rw [h63]
  rfl

/-- That write-back's block is the whole [1, 1] array, so the array ends holding the sum. -/
theorem final (c : Dev nD) : (dats m 0 c).arrAt 2 cfg0.N = result m c :=
  (dats m 0 c).arrAt_eq_of_cover 2 (result m c) (flushed_eq m c) fun i =>
    ⟨lastPt, (flush0_2 lastPt).mpr rfl, by
      show i ∈ ((View.whole main_v2).slice (win0_2.rect lastPt)).set
      rw [View.set_slice_whole, Rect.mem_set_unit]
      intro a
      have hidx : win0_2.index lastPt a * win0_2.size a = 0 := by fin_cases a <;> decide +kernel
      have hsz : win0_2.xsize (grid0.coords lastPt) a = 1 := by fin_cases a <;> decide +kernel
      have hi : (i a : ℕ) < 1 := by fin_cases a <;> exact (i _).isLt
      show win0_2.index lastPt a * win0_2.size a ≤ (i a : ℕ)
        ∧ (i a : ℕ) < win0_2.index lastPt a * win0_2.size a + win0_2.xsize (grid0.coords lastPt) a
      rw [hidx, hsz]; omega⟩

/-- The host lines after the region view the [1, 1] array as a scalar and divide it by the word 0x4B800000. -/
theorem returned (c : Dev nD) :
    Pipeline.afterTail₀ cfgs (dats m) 0 (V0 m) [hostOps1] c main_v4
      = fun _ => Ideal.div (total m c) (Ideal.ofBits .f32 0x4B800000#32) := by
  have hw : Pipeline.withArrays (cfgs 0).spec c (V0 m c) (fun w => (dats m 0 c).arrAt w (cfgs 0).N) (Proc.devRef .tc main_v2)
      = result m c :=
    (Pipeline.withArrays_arr spec0 launch0.win.arr_inj c _ _ 2).trans (final m c)
  unfold Pipeline.afterTail₀
  show StableHlo.after hostOps1 _ (Proc.devRef .tc main_v4) = _
  after_results
  funext j
  show Ideal.div (shapeCast S_ (Pipeline.withArrays (cfgs 0).spec c (V0 m c) (fun w => (dats m 0 c).arrAt w (cfgs 0).N)
      (Proc.devRef .tc main_v2)) shapeCasts_S1x1_S_ j) (Ideal.ofBits .f32 0x4B800000#32) = _
  rw [hw]
  rfl

end Cert.KernelIdeal.Accum

end
-- ==== Proof.Tiling.lean ====
/-
  Two re-indexings of a sum over the [131072, 128] array.

  The kernel's 64 blocks of 2048 rows tile it: entry (r, l) of block t is entry (2048·t + r, l) of the array, and every
  entry of the array is in exactly one block (`blockEquiv`: row R lies in block R / 2048 at row R % 2048). So summing a
  function over each block and then over the blocks is summing it over the array (`sum_blocks`).
-/
import Idealize.ShloMosaic.Lib.ValueIdx

noncomputable section

open Idealize.ShloMosaic Idealize.ShloMosaic.ValueIdx

namespace Cert.WeightedBce

/-- Where entry `j` of block `t` sits in the array: row 2048·t + j₀, lane j₁. -/
def blockIdx (t : Fin 64) (j : (⟨2, ![2048, 128]⟩ : Shape).Idx) : (⟨2, ![131072, 128]⟩ : Shape).Idx :=
  ix2 ⟨2048 * t.val + (j 0).val, by have := t.isLt; have := idx2_lt0 j; omega⟩ (j 1)

/-- The blocks tile the array: (block, entry of the block) ↔ entry of the array. -/
def blockEquiv : Fin 64 × (⟨2, ![2048, 128]⟩ : Shape).Idx ≃ (⟨2, ![131072, 128]⟩ : Shape).Idx where
  toFun p := blockIdx p.1 p.2
  invFun i := (⟨(i 0).val / 2048, by have := idx2_lt0 i; omega⟩, ix2 ⟨(i 0).val % 2048, Nat.mod_lt _ (by decide)⟩ (i 1))
  left_inv p := by
    obtain ⟨t, j⟩ := p
    have ht := t.isLt
    have hj := idx2_lt0 j
    refine Prod.ext (Fin.ext ?_) ?_
    · show (2048 * t.val + (j 0).val) / 2048 = t.val
      omega
    · funext a
      match a with
      | ⟨0, _⟩ => exact Fin.ext (show (2048 * t.val + (j 0).val) % 2048 = (j 0).val by omega)
      | ⟨1, _⟩ => rfl
  right_inv i := by
    funext a
    match a with
    | ⟨0, _⟩ => exact Fin.ext (show 2048 * ((i 0).val / 2048) + (i 0).val % 2048 = (i 0).val by omega)
    | ⟨1, _⟩ => rfl

/-- A sum over the array is the sum, over the 64 blocks, of the sums over each block. -/
theorem sum_blocks {M : Type*} [AddCommMonoid M] (g : (⟨2, ![131072, 128]⟩ : Shape).Idx → M) :
    ∑ t : Fin 64, ∑ j, g (blockIdx t j) = ∑ i, g i :=
  (Fintype.sum_prod_type' (fun t j => g (blockIdx t j))).symm.trans (Equiv.sum_comp blockEquiv g)

end Cert.WeightedBce

end
-- ==== Proof.KernelTotal.lean ====
/-
  The sum the idealized kernel returns, over the argument arrays.

  A block read through its window is the array read at `blockIdx` (the window's index map sends point t to block row t,
  and a block's row r is the array's row 2048·t + r); the two [131072, 128] arrays the region is launched on are the
  host's row-major reshapes of the [8, 1, 128, 128, 128] arguments. So the sum of the 64 block totals is, by the tiling
  of the array and the reshape's bijection of indices, the sum of `term` over every index of the arguments
  (`total_eq`), and the kernel's run ends with that sum divided by the word 0x4B800000 in its result (`run`).
-/
import proofs.«138284_j12953621365099_1_alg».proof.Proof.KernelValue
import proofs.«138284_j12953621365099_1_alg».proof.Proof.Tiling

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.WeightedBce

variable (m : (ℓ : Loc nD τ sig) → Buf (Elt Ideal) ℓ) (ρ : Dev nD → PrngReg)

/-- Both input windows move down one block row per point and never sideways — decided over the grid. -/
theorem index_logits : ∀ t : Fin cfg0.N, win0_0.index t 0 = t.val ∧ win0_0.index t 1 = 0 :=
  (by decide +kernel : ∀ t : Fin grid0.N, win0_0.index t 0 = t.val ∧ win0_0.index t 1 = 0)
theorem index_targets : ∀ t : Fin cfg0.N, win0_1.index t 0 = t.val ∧ win0_1.index t 1 = 0 :=
  (by decide +kernel : ∀ t : Fin grid0.N, win0_1.index t 0 = t.val ∧ win0_1.index t 1 = 0)

/-- The logits' block at point t, at entry j, is the launched array at row 2048·t + j₀, lane j₁. -/
theorem xblk_apply (c : Dev nD) (t : Fin cfg0.N) (j : S2048x128.Idx) :
    xblk m c t j = V m c main_v0 (blockIdx (t.cast N_0) j) := by
  unfold xblk iblk
  rw [View.read_apply]
  show V m c main_v0 _ = V m c main_v0 _
  congr 1
  funext a
  apply Fin.ext
  match a with
  | ⟨0, _⟩ =>
    show win0_0.index t 0 * 2048 + 1 * (j 0).val = 2048 * t.val + (j 0).val
    rw [(index_logits t).1]; omega
  | ⟨1, _⟩ =>
    show win0_0.index t 1 * 128 + 1 * (j 1).val = (j 1).val
    rw [(index_logits t).2]; omega

/-- The targets' block likewise. -/
theorem tblk_apply (c : Dev nD) (t : Fin cfg0.N) (j : S2048x128.Idx) :
    tblk m c t j = V m c main_v1 (blockIdx (t.cast N_0) j) := by
  unfold tblk iblk
  rw [View.read_apply]
  show V m c main_v1 _ = V m c main_v1 _
  congr 1
  funext a
  apply Fin.ext
  match a with
  | ⟨0, _⟩ =>
    show win0_1.index t 0 * 2048 + 1 * (j 0).val = 2048 * t.val + (j 0).val
    rw [(index_targets t).1]; omega
  | ⟨1, _⟩ =>
    show win0_1.index t 1 * 128 + 1 * (j 1).val = (j 1).val
    rw [(index_targets t).2]; omega

/-- The region is launched on the host's reshapes of the two arguments. -/
theorem logits_eq (c : Dev nD) : (V m c main_v0 : S131072x128.Idx → EReal)
    = shapeCast S131072x128 (m ((c : Thread nD τ).loc main_arg0)) shapeCasts_S8x1x128x128x128_S131072x128 := by
  show StableHlo.after hostOps0 (fun b => m (c, b)) (Proc.devRef .tc main_v0) = _
  after_results
  rfl
theorem targets_eq (c : Dev nD) : (V m c main_v1 : S131072x128.Idx → EReal)
    = shapeCast S131072x128 (m ((c : Thread nD τ).loc main_arg1)) shapeCasts_S8x1x128x128x128_S131072x128 := by
  show StableHlo.after hostOps0 (fun b => m (c, b)) (Proc.devRef .tc main_v1) = _
  after_results
  rfl

/-- The total of the block at position t is the sum of `term` over the array's entries that block covers. -/
theorem pointTotal_eq (c : Dev nD) (t : Fin 64) :
    pointTotal m c t.val = ∑ j, term (V m c main_v0 (blockIdx t j)) (V m c main_v1 (blockIdx t j)) := by
  have ht : t.val < cfg0.N := by rw [show cfg0.N = 64 from N_0]; exact t.isLt
  unfold pointTotal
  rw [dif_pos ht]
  unfold blockTotal
  refine Finset.sum_congr rfl fun j _ => ?_
  rw [xblk_apply, tblk_apply]
  rfl

/-- The sum of the 64 block totals is the sum of `term` over every index of the two arguments. -/
theorem total_eq (c : Dev nD) : total m c
    = ∑ i : S8x1x128x128x128.Idx, term (m ((c : Thread nD τ).loc main_arg0) i) (m ((c : Thread nD τ).loc main_arg1) i) := by
  unfold total
  rw [Finset.sum_range, Finset.sum_congr rfl fun t _ => pointTotal_eq m c t,
    sum_blocks (fun i => term (V m c main_v0 i) (V m c main_v1 i)), logits_eq, targets_eq]
  exact Equiv.sum_comp (Shape.reshapeEquiv shapeCasts_S8x1x128x128x128_S131072x128)
    (fun i => term (m ((c : Thread nD τ).loc main_arg0) i) (m ((c : Thread nD τ).loc main_arg1) i))

/-- The mean as both programs end with it: the sum of `term` over the arguments, divided by the word 0x4B800000. -/
def mean (a b : S8x1x128x128x128.Idx → EReal) : S_.Idx → EReal :=
  fun _ => Ideal.div (∑ i, term (a i) (b i)) (Ideal.ofBits .f32 0x4B800000#32)

/-- Every weakly fair execution of the idealized kernel terminates with its result at the mean and its arguments
    as launched. -/
theorem run : θ_run defs (onTc (τ := τ) (main (F := Ideal))) ⟨m, fun _ => 0, ρ⟩ fun r => ∀ c : Dev nD,
      r.2.mem ((c : Thread nD τ).loc main_v4)
          = mean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans
        ((returned m c).trans (by rw [total_eq]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Accum

end
-- ==== Proof.RefSide.lean ====
/-
  The reference's result over the argument arrays.

  The host computes the product bce · weight elementwise (entry by entry it is `refTerm`, the reference's spelling of
  the weighted term), sums it over all five axes from the word 0, and divides by the word 0x4B800000. A host sum into a
  scalar is the initial value plus the sum over every index, 0 + s = s, and `refTerm` is `term` on every pair of
  extended reals: the result is the sum of `term` over the arguments divided by that word.
-/
import proofs.«138284_j12953621365099_1_alg».proof.Proof.Gen.ReferenceIdeal.Read
import proofs.«138284_j12953621365099_1_alg».proof.Proof.Term

noncomputable section

open Idealize.ShloMosaic

namespace Cert.ReferenceIdeal.MeanValue

open Cert.ReferenceIdeal Cert.ReferenceIdeal.Read Cert.WeightedBce

/-- The product the reference reduces is its spelling of the weighted term at every index. -/
theorem product_apply (a b : (⟨S8x1x128x128x128, .f32⟩ : BufTy).Contents (Elt Ideal)) (i : S8x1x128x128x128.Idx) :
    val_main_v32 (F := Ideal) a b i = refTerm (a i) (b i) := rfl

/-- The reference's result: the sum of `term` over the arguments, divided by the word 0x4B800000. -/
theorem result_eq (a b : (⟨S8x1x128x128x128, .f32⟩ : BufTy).Contents (Elt Ideal)) :
    val_main_v34 (F := Ideal) a b
      = fun _ => Ideal.div (∑ i, term (a i) (b i)) (Ideal.ofBits .f32 0x4B800000#32) := by
  funext j
  rw [val_main_v34_apply, val_main_v33_apply]
  show Ideal.div (zeroW + ∑ i, val_main_v32 (F := Ideal) a b i) (Ideal.ofBits .f32 0x4B800000#32) = _
  rw [zeroW_eq, zero_add, Finset.sum_congr rfl fun i _ => (product_apply a b i).trans (refTerm_eq_term _ _)]

end Cert.ReferenceIdeal.MeanValue

end
-- ==== Proof.lean ====
/-
  The certificate's five claims for the weighted binary cross-entropy mean.

  Both programs compute, from logits x and targets t of shape [8, 1, 128, 128, 128], the mean over all 2^24 entries of
      term(x, t) = ((max(x, 0) - x·t) + log1p(exp(-|x|))) · ((1 + ½·[t > ½ and not σ(x) > ½]) + ½·[σ(x) > ½ and not t > ½]).
  The kernel reshapes the arguments to [131072, 128], adds up `term` block by block (64 blocks of 2048 rows, each block
  by a lane sum and a sum of the row sums) into a [1, 1] accumulator, and divides the result by the word 0x4B800000;
  the reference forms the product elementwise, sums it over all five axes and divides by the same word.

  Over the extended reals the two are the same number at every input, finite or not: `term` is spelled differently
  on the two sides but is one function (Proof/Term.lean), addition of extended reals is commutative and associative, so
  the sum over the blocks, the rows and the lanes is the sum over every index (Proof/KernelValue.lean, Proof/Tiling.lean,
  Proof/KernelTotal.lean), 0 + s = s on both sides, and the last division is the same operation of the same two
  operands (Proof/RefSide.lean). The precondition is not used.

  The frames of the two kernel programs are the generated frame runs; the reference's is its generated run with the
  result dropped; the ideal pass rewrote nothing, so `preserves` is `True`.
-/
import proofs.«138284_j12953621365099_1_alg».proof.Defs
import proofs.«138284_j12953621365099_1_alg».proof.Proof.Gen.Kernel
import proofs.«138284_j12953621365099_1_alg».proof.Proof.Gen.Kernel.Skeleton
import proofs.«138284_j12953621365099_1_alg».proof.Proof.Gen.Kernel.Launch
import proofs.«138284_j12953621365099_1_alg».proof.Proof.Gen.Kernel.Points
import proofs.«138284_j12953621365099_1_alg».proof.Proof.Gen.Kernel.Frame
import proofs.«138284_j12953621365099_1_alg».proof.Proof.Gen.KernelIdeal
import proofs.«138284_j12953621365099_1_alg».proof.Proof.Gen.KernelIdeal.Skeleton
import proofs.«138284_j12953621365099_1_alg».proof.Proof.Gen.KernelIdeal.Launch
import proofs.«138284_j12953621365099_1_alg».proof.Proof.Gen.KernelIdeal.Points
import proofs.«138284_j12953621365099_1_alg».proof.Proof.Gen.KernelIdeal.Frame
import proofs.«138284_j12953621365099_1_alg».proof.Proof.Gen.ReferenceIdeal
import proofs.«138284_j12953621365099_1_alg».proof.Proof.Gen.ReferenceIdeal.Run
import proofs.«138284_j12953621365099_1_alg».proof.Proof.Gen.ReferenceIdeal.Read
import proofs.«138284_j12953621365099_1_alg».proof.Proof.Gen.Pre_finite_inputs
import proofs.«138284_j12953621365099_1_alg».proof.Proof.KernelTotal
import proofs.«138284_j12953621365099_1_alg».proof.Proof.RefSide
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the two arguments both idealized programs end with the mean of `term` over the
    arguments in their result: the kernel by its accumulation over the grid, the reference by its one sum. -/
theorem algebraic : Cert.algebraic_KernelIdeal_ReferenceIdeal := by
  intro m ρ m' ρ' _ hagree
  refine ⟨fun c => Cert.KernelIdeal.Accum.mean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Accum.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.MeanValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
